-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S62x8192x128 : Shape := ⟨3, ![62, 8192, 128]⟩
abbrev S62x256x128 : Shape := ⟨3, ![62, 256, 128]⟩
abbrev S256 : Shape := ⟨1, ![256]⟩
abbrev S_ : Shape := ⟨0, ![]⟩

class Facts : Prop where
  bcast_S_S62x8192x128 : S_.BroadcastsInDim S62x8192x128 (![] : Fin 0 → Fin S62x8192x128.rank)
  reducesTo_S62x8192x128_S_d0_1_2 : S62x8192x128.ReducesTo [0, 1, 2] S_
  h_S_ : 0 < S_.numel
  bcast_S_S62x256x128 : S_.BroadcastsInDim S62x256x128 (![] : Fin 0 → Fin S62x256x128.rank)
  reducesTo_S62x256x128_S_d0_1_2 : S62x256x128.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S62x8192x128 .f32) (main_arg1 : FVec F S62x256x128 .f32) (main_arg2 : FVec F S256 .f32) (main_arg3 : FVec F S256 .f32) : IVec S_ 1 :=
  let main_v0 : FVec F S62x8192x128 .f32 := Host.absf main_arg0
  let main_cst : FVec F S_ .f32 := constant S_ .f32 0x7F800000#32
  let main_v1 : FVec F S62x8192x128 .f32 := broadcastInDim S62x8192x128 ![] bcast_S_S62x8192x128 main_cst
  let main_v2 : IVec S62x8192x128 1 := cmpf .olt main_v0 main_v1
  let main_c : IVec S_ 1 := constantI S_ 1 1#1
  let main_v3 : IVec S_ 1 := (fun x v => Host.reduce IntOp.andi x v reducesTo_S62x8192x128_S_d0_1_2 h_S_) main_v2 main_c
  let main_v4 : FVec F S62x256x128 .f32 := Host.absf main_arg1
  let main_cst_0 : FVec F S_ .f32 := constant S_ .f32 0x7F800000#32
  let main_v5 : FVec F S62x256x128 .f32 := broadcastInDim S62x256x128 ![] bcast_S_S62x256x128 main_cst_0
  let main_v6 : IVec S62x256x128 1 := cmpf .olt main_v4 main_v5
  let main_c_1 : IVec S_ 1 := constantI S_ 1 1#1
  let main_v7 : IVec S_ 1 := (fun x v => Host.reduce IntOp.andi x v reducesTo_S62x256x128_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S62x8192x128 : Shape := ⟨3, ![62, 8192, 128]⟩
abbrev S62x256x128 : Shape := ⟨3, ![62, 256, 128]⟩
abbrev S256 : Shape := ⟨1, ![256]⟩
abbrev S62x8192x256 : Shape := ⟨3, ![62, 8192, 256]⟩
abbrev S1x2048x128 : Shape := ⟨3, ![1, 2048, 128]⟩
abbrev S1x256x128 : Shape := ⟨3, ![1, 256, 128]⟩
abbrev S1x2048x256 : Shape := ⟨3, ![1, 2048, 256]⟩
abbrev S2048x128 : Shape := ⟨2, ![2048, 128]⟩
abbrev S256x128 : Shape := ⟨2, ![256, 128]⟩
abbrev S128x256 : Shape := ⟨2, ![128, 256]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S62x8192x128, .f32⟩
  | .hbm, ⟨1, _⟩ => ⟨S62x256x128, .f32⟩
  | .hbm, ⟨2, _⟩ => ⟨S256, .f32⟩
  | .hbm, ⟨3, _⟩ => ⟨S256, .f32⟩
  | .hbm, ⟨4, _⟩ => ⟨S62x8192x256, .f32⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S256, .f32⟩
  | .local _ .vmem, ⟨5, _⟩ => ⟨S256, .f32⟩
  | .local _ .vmem, ⟨6, _⟩ => ⟨S1x2048x256, .f32⟩
  | .local _ .vmem, ⟨7, _⟩ => ⟨S1x2048x256, .f32⟩
  | _, _ => ⟨S62x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![62, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  transposes_S256x128_p1_0_S128x256 : S256x128.Transposes [1, 0] S128x256
  reduces_S2048x256_S2048 : S2048x256.Reduces [1] S2048
  shapeCasts_S2048_S2048x1 : S2048.ShapeCasts S2048x1
  broadcasts_S2048x1_S2048x256 : S2048x1.Broadcasts S2048x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S62x8192x128.size a
  hwx0_0 : ∀ i : grid0.Coords, EltTy.bits .f32 = 32 ∨ (Rect.block (s := S62x8192x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S62x256x128.size a
  hwx0_1 : ∀ i : grid0.Coords, EltTy.bits .f32 = 32 ∨ (Rect.block (s := S62x256x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S62x8192x256.size a
  hwx0_4 : ∀ i : grid0.Coords, EltTy.bits .f32 = 32 ∨ (Rect.block (s := S62x8192x256) S1x2048x256.size (cc0_transform_4 i) (hinb0_4 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S62x8192x128 : Shape := ⟨3, ![62, 8192, 128]⟩
abbrev S62x256x128 : Shape := ⟨3, ![62, 256, 128]⟩
abbrev S256 : Shape := ⟨1, ![256]⟩
abbrev S62x8192x256 : Shape := ⟨3, ![62, 8192, 256]⟩
abbrev S_ : Shape := ⟨0, ![]⟩
abbrev S62x8192 : Shape := ⟨2, ![62, 8192]⟩
abbrev S62x8192x1 : Shape := ⟨3, ![62, 8192, 1]⟩
abbrev S1x1x256 : Shape := ⟨3, ![1, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S62x8192x128, .f32⟩
  | .hbm, ⟨1, _⟩ => ⟨S62x256x128, .f32⟩
  | .hbm, ⟨2, _⟩ => ⟨S256, .f32⟩
  | .hbm, ⟨3, _⟩ => ⟨S256, .f32⟩
  | .hbm, ⟨4, _⟩ => ⟨S62x8192x256, .f32⟩
  | .hbm, ⟨5, _⟩ => ⟨S_, .f32⟩
  | .hbm, ⟨6, _⟩ => ⟨S62x8192, .f32⟩
  | .hbm, ⟨7, _⟩ => ⟨S62x8192x1, .f32⟩
  | .hbm, ⟨8, _⟩ => ⟨S_, .f32⟩
  | .hbm, ⟨9, _⟩ => ⟨S62x8192x1, .f32⟩
  | .hbm, ⟨10, _⟩ => ⟨S62x8192x1, .f32⟩
  | .hbm, ⟨11, _⟩ => ⟨S62x8192x256, .f32⟩
  | .hbm, ⟨12, _⟩ => ⟨S62x8192x256, .f32⟩
  | .hbm, ⟨13, _⟩ => ⟨S62x8192x256, .f32⟩
  | .hbm, ⟨14, _⟩ => ⟨S_, .f32⟩
  | .hbm, ⟨15, _⟩ => ⟨S62x8192, .f32⟩
  | .hbm, ⟨16, _⟩ => ⟨S62x8192x1, .f32⟩
  | .hbm, ⟨17, _⟩ => ⟨S_, .f32⟩
  | .hbm, ⟨18, _⟩ => ⟨S62x8192x1, .f32⟩
  | .hbm, ⟨19, _⟩ => ⟨S62x8192x1, .f32⟩
  | .hbm, ⟨20, _⟩ => ⟨S62x8192x256, .f32⟩
  | .hbm, ⟨21, _⟩ => ⟨S62x8192x256, .f32⟩
  | .hbm, ⟨22, _⟩ => ⟨S_, .f32⟩
  | .hbm, ⟨23, _⟩ => ⟨S62x8192x1, .f32⟩
  | .hbm, ⟨24, _⟩ => ⟨S62x8192x1, .f32⟩
  | .hbm, ⟨25, _⟩ => ⟨S62x8192x1, .f32⟩
  | .hbm, ⟨26, _⟩ => ⟨S62x8192x256, .f32⟩
  | .hbm, ⟨27, _⟩ => ⟨S62x8192x256, .f32⟩
  | .hbm, ⟨28, _⟩ => ⟨S1x1x256, .f32⟩
  | .hbm, ⟨29, _⟩ => ⟨S62x8192x256, .f32⟩
  | .hbm, ⟨30, _⟩ => ⟨S62x8192x256, .f32⟩
  | .hbm, ⟨31, _⟩ => ⟨S1x1x256, .f32⟩
  | .hbm, ⟨32, _⟩ => ⟨S62x8192x256, .f32⟩
  | .hbm, ⟨33, _⟩ => ⟨S62x8192x256, .f32⟩
  | _, _ => ⟨S62x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S62x8192x256_S62x8192_d2 : S62x8192x256.ReducesTo [2] S62x8192
  h_S_ : 0 < S_.numel
  bcast_S62x8192_S62x8192x1_0_1 : S62x8192.BroadcastsInDim S62x8192x1 (![0, 1] : Fin 2 → Fin S62x8192x1.rank)
  bcast_S_S62x8192x1 : S_.BroadcastsInDim S62x8192x1 (![] : Fin 0 → Fin S62x8192x1.rank)
  bcast_S62x8192x1_S62x8192x256_0_1_2 : S62x8192x1.BroadcastsInDim S62x8192x256 (![0, 1, 2] : Fin 3 → Fin S62x8192x256.rank)
  bcast_S256_S1x1x256_2 : S256.BroadcastsInDim S1x1x256 (![2] : Fin 1 → Fin S1x1x256.rank)
  bcast_S1x1x256_S62x8192x256_0_1_2 : S1x1x256.BroadcastsInDim S62x8192x256 (![0, 1, 2] : Fin 3 → Fin S62x8192x256.rank)
  dot_S62x8192x128_S62x256x128_S62x8192x256_2_2_1_1_0_0_wf : DotDims.WF S62x8192x128 S62x256x128 S62x8192x256 [2] [2] [1] [1] [0] [0]

variable [Facts₀]

def dot_S62x8192x128_S62x256x128_S62x8192x256_2_2_1_1_0_0 : DotDims S62x8192x128 S62x256x128 S62x8192x256 where
  lhsContracting := [2]
  rhsContracting := [2]
  lhsNonContracting := [1]
  rhsNonContracting := [1]
  lhsBatch := [0]
  rhsBatch := [0]
  wf := dot_S62x8192x128_S62x256x128_S62x8192x256_2_2_1_1_0_0_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.LibColumn.lean ====
/-
  Column vectors: a row total kept as a column, and a column spread across a row.

  A row-wise statistic of an a × b array (its total, its mean, its variance) is first a vector of length a, then is
  viewed as an a × 1 column, and is finally spread over the b columns so that it can be combined entry by entry with the
  array it was computed from. Read at an entry, each of these three steps only renames the index:

    * the total of row r of an a × b array is the sum over k of the entries (r, k);
    * a length-a vector viewed as an a × 1 column has, at (r, 0), the vector's entry r;
    * an a × 1 column spread over b columns has, at (r, j), the column's entry (r, 0), whatever j is.

  No law of the extended reals is used anywhere: a sum over the positions of a row is a sum over the numbers below b.
-/
import Idealize.ShloMosaic.Lib.ValueLayout
import Idealize.ShloMosaic.PureOps.Ideal.Laws

noncomputable section

open scoped BigOperators

namespace Cert.LibColumn

open Idealize.ShloMosaic Idealize.ShloMosaic.ValueIdx

variable {α : Type}

/-- A length-`a` vector viewed as an `a × 1` column reads, at `(r, u)`, the vector's entry `r`: the column's one
    coordinate `u` is zero, so both positions are `r` in row-major order. -/
theorem column_of_vector_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `a × 1` column spread over `b` columns reads, at `(r, j)`, the column's entry `(r, 0)`: the row is kept and the
    column's only coordinate is zero. -/
theorem spread_column_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The total of row `r` of an `a × b` array, as the lane reduction along the second axis started from the zero word
    computes it at the ideal values: the sum over `k` of the entries `(r, k)`. -/
theorem row_total_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => rfl
  | ⟨1, _⟩ => rfl

end Cert.LibColumn
-- ==== Proof.NormSpec.lean ====
/-
  What the fused projection-and-normalisation computes, entry by entry, over the extended reals.

  For each part p (62 of them) and each of the 8192 points n of that part, the 128 input features x(p, n, ·) are mapped
  by the part's own 256 × 128 weight matrix W(p, ·, ·) to 256 channels

      h(d) = ∑ q, x(p, n, q) · W(p, d, q),

  and that row of 256 numbers is then normalised: with

      mean = (∑ k, h(k)) / 256,      var = (∑ k, (h(k) − mean) · (h(k) − mean)) / 256,

  the result at channel d is

      ((h(d) − mean) · rsqrt(var + ε)) · γ(d) + β(d),

  where ε is the single-precision number nearest to 10⁻⁵ and γ, β are the 256 scale and shift parameters. Division,
  reciprocal square root, sums and products are the exact ones of the extended reals, so the order in which a row's
  entries are added plays no part. Both programs compute exactly this expression, grouped exactly so; nothing here
  needs the inputs to be finite.
-/
import Idealize.ShloMosaic.PureOps.Ideal.Laws
import Idealize.ShloMosaic.Lib.ValueIdx

noncomputable section

open scoped BigOperators

namespace Cert.NormSpec

open Idealize.ShloMosaic Idealize.ShloMosaic.ValueIdx

/-- The number of channels, 256, as the single-precision word both programs divide by. -/
abbrev channels : EReal := Ideal.ofBits .f32 0x43800000#32

/-- The stabiliser ε added to the variance: the single-precision number nearest to 10⁻⁵, the same word in both programs. -/
abbrev stabiliser : EReal := Ideal.ofBits .f32 0x3727C5AC#32

/-- The mean of a row of 256 numbers. -/
def rowMean (h : Fin 256 → EReal) : EReal := Ideal.div (∑ k : Fin 256, h k) channels

/-- The (biased) variance of a row: the mean of the squared deviations from the row's mean. -/
def rowVar (h : Fin 256 → EReal) : EReal :=
  Ideal.div (∑ k : Fin 256, (h k - rowMean h) * (h k - rowMean h)) channels

/-- A row normalised, scaled by `g` and shifted by `b`, at channel `d`. -/
def normRow (h g b : Fin 256 → EReal) (d : Fin 256) : EReal :=
  (h d - rowMean h) * Ideal.rsqrt (rowVar h + stabiliser) * g d + b d

/-- Channel `d` of point `n` of part `p` before normalisation: the point's 128 features against row `d` of the part's
    weight matrix. -/
def channel (x : FVec Ideal ⟨3, ![62, 8192, 128]⟩ .f32) (W : FVec Ideal ⟨3, ![62, 256, 128]⟩ .f32)
    (p : Fin 62) (n : Fin 8192) (d : Fin 256) : EReal :=
  ∑ q : Fin 128, x (ix3 p n q) * W (ix3 p d q)

/-- The whole result at part `p`, point `n`, channel `d`. -/
def entry (x : FVec Ideal ⟨3, ![62, 8192, 128]⟩ .f32) (W : FVec Ideal ⟨3, ![62, 256, 128]⟩ .f32)
    (g b : FVec Ideal ⟨1, ![256]⟩ .f32) (p : Fin 62) (n : Fin 8192) (d : Fin 256) : EReal :=
  normRow (channel x W p n) (fun k => g (ix1 k)) (fun k => b (ix1 k)) d

/-- The whole result array as one function of the four argument arrays. -/
def result (x : FVec Ideal ⟨3, ![62, 8192, 128]⟩ .f32) (W : FVec Ideal ⟨3, ![62, 256, 128]⟩ .f32)
    (g b : FVec Ideal ⟨1, ![256]⟩ .f32) : FVec Ideal ⟨3, ![62, 8192, 256]⟩ .f32 :=
  fun i => entry x W g b (i 0) (i 1) (i 2)

theorem result_apply (x : FVec Ideal ⟨3, ![62, 8192, 128]⟩ .f32) (W : FVec Ideal ⟨3, ![62, 256, 128]⟩ .f32)
    (g b : FVec Ideal ⟨1, ![256]⟩ .f32) (p : Fin 62) (n : Fin 8192) (d : Fin 256) :
    result x W g b (ix3 p n d) = entry x W g b p n d := rfl

end Cert.NormSpec
-- ==== Proof.BodyValue.lean ====
/-
  What one grid step of the kernel leaves in its output block, entry by entry.

  A grid step sees a 1 × 2048 × 128 block of the features (2048 consecutive points of one part), that part's
  1 × 256 × 128 weight matrix, and the 256 scale and shift parameters. It multiplies the 2048 × 128 block by the
  transpose of the 256 × 128 weights, so row r of the product holds the 256 channels

      h_r(d) = ∑ q, X(0, r, q) · W(0, d, q),

  then takes each row's total, divides by 256, subtracts, squares, totals and divides again, adds ε, takes the reciprocal
  square root, and finally scales and shifts. Narrowing the two factors to bfloat16 changes nothing over the extended
  reals, and the product is accumulated into zeros, so at row r and channel d the stored value is exactly the
  normalised row of `NormSpec` built from h_r.

  The body's value is taken apart into three named stages (the product, the centred product, the per-row scale); each is
  read at an entry by renaming indices only.
-/
import proofs.«170389_j82995948028522_1_alg».proof.Proof.Gen.KernelIdeal.Skeleton
import proofs.«170389_j82995948028522_1_alg».proof.Proof.LibDotPlain
import proofs.«170389_j82995948028522_1_alg».proof.Proof.LibColumn
import proofs.«170389_j82995948028522_1_alg».proof.Proof.NormSpec
import Idealize.ShloMosaic.Lib.ValueLayout

noncomputable section

open scoped BigOperators

namespace Cert.KernelIdeal.BodyValue

open Cert.KernelIdeal Cert.KernelIdeal.Gen Idealize.ShloMosaic Idealize.ShloMosaic.ValueIdx Cert.NormSpec

variable (x0 : Vec Ideal S1x2048x128 .f32) (x1 : Vec Ideal S1x256x128 .f32) (x2 x3 : Vec Ideal S256 .f32)

/-- Channel `d` of row `r` of the block, before normalisation. -/
def blockChannel (r : Fin 2048) (d : Fin 256) : EReal := ∑ q : Fin 128, x0 (ix3 (0 : Fin 1) r q) * x1 (ix3 (0 : Fin 1) d q)

/-! ## The three stages of the body's value -/

/-- The 2048 × 256 product of the feature block with the transposed weights, accumulated into zeros. -/
def product : FVec Ideal S2048x256 .f32 :=
  matmul dot_S2048x128_S128x256_S2048x256_1_0_0_1_n_n none
    (truncf .bf16 (shapeCast S2048x128 x0 shapeCasts_S1x2048x128_S2048x128) bitsLt_bf16_f32)
    (transpose S128x256 [1, 0] (truncf .bf16 (shapeCast S256x128 x1 shapeCasts_S1x256x128_S256x128) bitsLt_bf16_f32)
      transposes_S256x128_p1_0_S128x256)
    (constant S2048x256 .f32 0x00000000#32)

/-- The product with each row's mean subtracted. -/
def centred : FVec Ideal S2048x256 .f32 :=
  subf (product x0 x1)
    (broadcastTo S2048x256
      (divf (shapeCast S2048x1 (multiReduction .add [1] S2048 (product x0 x1) 0x00000000#32 reduces_S2048x256_S2048 (.inl rfl) rfl)
          shapeCasts_S2048_S2048x1)
        (broadcast S2048x1 (Scalar.ofBits .f32 0x43800000#32)))
      broadcasts_S2048x1_S2048x256)

/-- Each row's reciprocal square root of its variance plus ε, as a column. -/
def scale : FVec Ideal S2048x1 .f32 :=
  rsqrt (addf
    (divf (shapeCast S2048x1
        (multiReduction .add [1] S2048 (mulf (centred x0 x1) (centred x0 x1)) 0x00000000#32 reduces_S2048x256_S2048 (.inl rfl) rfl)
        shapeCasts_S2048_S2048x1)
      (broadcast S2048x1 (Scalar.ofBits .f32 0x43800000#32)))
    (broadcast S2048x1 (Scalar.ofBits .f32 0x3727C5AC#32)))

/-- The stored value is the centred product times the scale, times the scale parameters, plus the shift parameters,
    with a leading unit axis put back. -/
theorem payload_eq :
    k0_pay1 x0 x1 x2 x3
      = shapeCast S1x2048x256
          (addf (mulf (mulf (centred x0 x1) (broadcastTo S2048x256 (scale x0 x1) broadcasts_S2048x1_S2048x256))
              (broadcastTo S2048x256 (shapeCast S1x256 x2 shapeCasts_S256_S1x256) broadcasts_S1x256_S2048x256))
            (broadcastTo S2048x256 (shapeCast S1x256 x3 shapeCasts_S256_S1x256) broadcasts_S1x256_S2048x256))
          shapeCasts_S2048x256_S1x2048x256 := rfl

/-! ## Each stage at an entry -/

/-- Row `r`, channel `d` of the product: the row's features against row `d` of the weights. -/
theorem product_apply (r : Fin 2048) (d : Fin 256) : product x0 x1 (ix2 r d) = blockChannel x0 x1 r d := by
  unfold product blockChannel
  refine (Cert.LibDotPlain.matmul_zero_plain 2048 128 256 none _ _ r d).trans ?_
  refine Finset.sum_congr rfl fun q _ => ?_
  refine congrArg₂ (· * ·) ?_ ?_
  · exact shapeCast_1ab_ab_apply x0 shapeCasts_S1x2048x128_S2048x128 r q
  · refine (transpose_ix2_apply _ transposes_S256x128_p1_0_S128x256 q d).trans ?_
    exact shapeCast_1ab_ab_apply x1 shapeCasts_S1x256x128_S256x128 d q

/-- The total of row `r` of the product. -/
theorem product_total (r : Fin 2048) :
    multiReduction .add [1] S2048 (product x0 x1) 0x00000000#32 reduces_S2048x256_S2048 (.inl rfl) rfl (ix1 r)
      = ∑ k : Fin 256, blockChannel x0 x1 r k :=
  (Cert.LibColumn.row_total_apply (product x0 x1) reduces_S2048x256_S2048 (.inl rfl) rfl r).trans
    (Finset.sum_congr rfl fun k _ => product_apply x0 x1 r k)

/-- Row `r`, channel `d` of the centred product: the channel minus the row's mean. -/
theorem centred_apply (r : Fin 2048) (d : Fin 256) :
    centred x0 x1 (ix2 r d) = blockChannel x0 x1 r d - rowMean (blockChannel x0 x1 r) := by
  unfold centred
  refine (subf_apply _ _ _).trans ?_
  refine congrArg₂ (· - ·) (product_apply x0 x1 r d) ?_
  refine (Cert.LibColumn.spread_column_apply _ broadcasts_S2048x1_S2048x256 r d).trans ?_
  refine (divf_apply _ _ _).trans ?_
  unfold rowMean
  refine congrArg₂ Ideal.div ?_ rfl
  exact (Cert.LibColumn.column_of_vector_apply _ shapeCasts_S2048_S2048x1 r 0).trans (product_total x0 x1 r)

/-- Row `r` of the scale column: the reciprocal square root of the row's variance plus ε. -/
theorem scale_apply (r : Fin 2048) (u : Fin 1) :
    scale x0 x1 (ix2 r u) = Ideal.rsqrt (rowVar (blockChannel x0 x1 r) + stabiliser) := by
  unfold scale
  change Ideal.rsqrt _ = _
  refine congrArg Ideal.rsqrt ?_
  refine (addf_apply _ _ _).trans ?_
  refine congrArg₂ (· + ·) ?_ rfl
  refine (divf_apply _ _ _).trans ?_
  unfold rowVar
  refine congrArg₂ Ideal.div ?_ rfl
  refine (Cert.LibColumn.column_of_vector_apply _ shapeCasts_S2048_S2048x1 r u).trans ?_
  refine (Cert.LibColumn.row_total_apply _ reduces_S2048x256_S2048 (.inl rfl) rfl r).trans ?_
  refine Finset.sum_congr rfl fun k _ => ?_
  refine (mulf_apply _ _ _).trans ?_
  exact congrArg₂ (· * ·) (centred_apply x0 x1 r k) (centred_apply x0 x1 r k)

/-! ## The stored value at an entry -/

/-- At row `r` and channel `d` of the output block the body stores the normalised row built from the block's
    channels, scaled and shifted by the loaded parameters. -/
theorem payload_apply (u : Fin 1) (r : Fin 2048) (d : Fin 256) :
    k0_pay1 x0 x1 x2 x3 (ix3 u r d)
      = normRow (blockChannel x0 x1 r) (fun k => x2 (ix1 k)) (fun k => x3 (ix1 k)) d := by
  rw [payload_eq]
  refine (shapeCast_ab_1ab_apply _ shapeCasts_S2048x256_S1x2048x256 u r d).trans ?_
  refine (addf_apply _ _ _).trans ?_
  unfold normRow
  refine congrArg₂ (· + ·) ?_ ?_
  · refine (mulf_apply _ _ _).trans ?_
    refine congrArg₂ (· * ·) ?_ ?_
    · refine (mulf_apply _ _ _).trans ?_
      refine congrArg₂ (· * ·) (centred_apply x0 x1 r d) ?_
      exact (Cert.LibColumn.spread_column_apply _ broadcasts_S2048x1_S2048x256 r d).trans (scale_apply x0 x1 r 0)
    · exact (broadcastTo_1b_ab_apply _ broadcasts_S1x256_S2048x256 r d).trans
        (shapeCast_a_1a_apply x2 shapeCasts_S256_S1x256 0 d)
  · exact (broadcastTo_1b_ab_apply _ broadcasts_S1x256_S2048x256 r d).trans
      (shapeCast_a_1a_apply x3 shapeCasts_S256_S1x256 0 d)

end Cert.KernelIdeal.BodyValue
-- ==== Proof.ArrayValue.lean ====
/-
  From what each grid step writes to the whole result array.

  The grid has 62 · 4 steps: step (p, j) reads points 2048·j … 2048·j + 2047 of part p (a 1 × 2048 × 128 block of the
  features), the whole weight matrix of part p, and all 256 scale and shift parameters, and writes the 1 × 2048 × 256
  block of the result at part p, points 2048·j …, all channels. So entry (0, r, d) of the block a step writes is entry
  (p, 2048·j + r, d) of the result; the features it was computed from are the rows (p, 2048·j + r, ·) of the feature
  array and the weights the rows (p, d', ·) of the weight array. Hence what a step writes is exactly its block of the
  specification's result array. The 248 blocks are distinct and together hold every entry of the result (entry
  (p, n, d) lies in the block of step (p, n / 2048)), so after the run the array is the specification.
-/
import proofs.«170389_j82995948028522_1_alg».proof.Proof.Gen.KernelIdeal.Value
import proofs.«170389_j82995948028522_1_alg».proof.Proof.BodyValue

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.NormSpec Cert.KernelIdeal.BodyValue
open Idealize.ShloMosaic.Pipeline (Dat)

variable (m : (ℓ : Loc nD τ sig) → Buf (Elt Ideal) ℓ) (ρ : Dev nD → PrngReg)

theorem origin3 : (![0, 0, 0] : Fin 3 → Nat) = fun _ => 0 := funext fun a => by fin_cases a <;> rfl
theorem origin1 : (![0] : Fin 1 → Nat) = fun _ => 0 := funext fun a => by fin_cases a <;> rfl

/-! ## Which blocks a step reads and writes -/

/-- At every step the feature block sits at the same part and the same run of points as the output block, from feature
    0; the weight block at the same part, from weight row 0 and feature 0; the parameter blocks at 0; and the output
    block starts at channel 0. -/
theorem block_positions : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 1) = 0
    ∧ win0_3.index t (0 : Fin 1) = 0
    ∧ win0_4.index t (2 : Fin 3) = 0 :=
  (by decide +kernel : ∀ t : Fin grid0.N, _)

/-- Every (part, run of 2048 points) is some step's output block. -/
theorem every_block_written : ∀ (p : Fin 62) (j : Fin 4), ∃ t : Fin cfg0.N, win0_4.index t = ![p.val, j.val, 0] :=
  (by decide +kernel : ∀ (p : Fin 62) (j : Fin 4), ∃ t : Fin grid0.N, win0_4.index t = ![p.val, j.val, 0])

/-! ## A step's block is its block of the specification -/

/-- The specification's result at the array position of entry `(u, r, d)` of step `t`'s output block, in terms of the
    blocks the step reads. -/
theorem spec_at_block_entry (c : Dev nD) (t : Fin cfg0.N) (u : Fin 1) (r : Fin 2048) (d : Fin 256) :
    result (V m c main_arg0) (V m c main_arg1) (V m c main_arg2) (V m c main_arg3)
        (((cfg0.win 4).blk t).view.emb (ix3 u r d))
      = normRow (blockChannel (iblk m c 0 t) (iblk m c 1 t) r) (fun k => iblk m c 2 t (ix1 k))
          (fun k => iblk m c 3 t (ix1 k)) d := by
  obtain ⟨e00, e01, e02, e10, e11, e12, e2, e3, e42⟩ := block_positions t
  have hu : u.val = 0 := by omega
  -- the channel of the array position is the channel inside the block
  have hd : (((cfg0.win 4).blk t).view.emb (ix3 u r d)) 2 = d := by
    apply Fin.ext
    show win0_4.index t (2 : Fin 3) * 256 + 1 * d.val = d.val
    omega
  -- the row of channels is the block's row of channels
  have hrow : channel (V m c main_arg0) (V m c main_arg1) ((((cfg0.win 4).blk t).view.emb (ix3 u r d)) 0)
      ((((cfg0.win 4).blk t).view.emb (ix3 u r d)) 1) = blockChannel (iblk m c 0 t) (iblk m c 1 t) r := by
    funext d'
    unfold channel blockChannel
    refine Finset.sum_congr rfl fun q _ => ?_
    refine congrArg₂ (· * ·) ?_ ?_
    · show V m c main_arg0 _ = V m c main_arg0 (((cfg0.win 0).blk t).view.emb (ix3 (0 : Fin 1) r q))
      refine congrArg (V m c main_arg0) (funext fun a => Fin.ext ?_)
      match a with
      | ⟨0, _⟩ =>
        show win0_4.index t (0 : Fin 3) * 1 + 1 * u.val = win0_0.index t (0 : Fin 3) * 1 + 1 * 0
        omega
      | ⟨1, _⟩ =>
        show win0_4.index t (1 : Fin 3) * 2048 + 1 * r.val = win0_0.index t (1 : Fin 3) * 2048 + 1 * r.val
        omega
      | ⟨2, _⟩ =>
        show q.val = win0_0.index t (2 : Fin 3) * 128 + 1 * q.val
        omega
    · show V m c main_arg1 _ = V m c main_arg1 (((cfg0.win 1).blk t).view.emb (ix3 (0 : Fin 1) d' q))
      refine congrArg (V m c main_arg1) (funext fun a => Fin.ext ?_)
      match a with
      | ⟨0, _⟩ =>
        show win0_4.index t (0 : Fin 3) * 1 + 1 * u.val = win0_1.index t (0 : Fin 3) * 1 + 1 * 0
        omega
      | ⟨1, _⟩ =>
        show d'.val = win0_1.index t (1 : Fin 3) * 256 + 1 * d'.val
        omega
      | ⟨2, _⟩ =>
        show q.val = win0_1.index t (2 : Fin 3) * 128 + 1 * q.val
        omega
  have hg : (fun k : Fin 256 => V m c main_arg2 (ix1 k)) = fun k => iblk m c 2 t (ix1 k) := by
    funext k
    show V m c main_arg2 _ = V m c main_arg2 (((cfg0.win 2).blk t).view.emb (ix1 k))
    refine congrArg (V m c main_arg2) (funext fun a => Fin.ext ?_)
    match a with
    | ⟨0, _⟩ =>
      show k.val = win0_2.index t (0 : Fin 1) * 256 + 1 * k.val
      omega
  have hb : (fun k : Fin 256 => V m c main_arg3 (ix1 k)) = fun k => iblk m c 3 t (ix1 k) := by
    funext k
    show V m c main_arg3 _ = V m c main_arg3 (((cfg0.win 3).blk t).view.emb (ix1 k))
    refine congrArg (V m c main_arg3) (funext fun a => Fin.ext ?_)
    match a with
    | ⟨0, _⟩ =>
      show k.val = win0_3.index t (0 : Fin 1) * 256 + 1 * k.val
      omega
  show normRow (channel (V m c main_arg0) (V m c main_arg1) ((((cfg0.win 4).blk t).view.emb (ix3 u r d)) 0)
      ((((cfg0.win 4).blk t).view.emb (ix3 u r d)) 1)) (fun k => V m c main_arg2 (ix1 k)) (fun k => V m c main_arg3 (ix1 k))
      ((((cfg0.win 4).blk t).view.emb (ix3 u r d)) 2) = _
  rw [hrow, hg, hb, hd]

/-- What step `t` writes back is block `t` of the specification's result array. -/
theorem flushed_eq (c : Dev nD) (t : Fin cfg0.N) :
    (dats m 0 c).flushed 4 t = ((cfg0.win 4).blk t).view.read (Elt Ideal)
      (result (V m c main_arg0) (V m c main_arg1) (V m c main_arg2) (V m c main_arg3)) := by
  rw [Cert.KernelIdeal.Value.flushed4]
  unfold out0_4
  rw [View.canon_unit_zero origin3]
  simp only [View.ld_unit_zero (S := S1x2048x128) origin3, View.ld_unit_zero (S := S1x256x128) origin3,
    View.ld_unit_zero (S := S256) origin1]
  funext y
  obtain ⟨u, r, d, rfl⟩ : ∃ (u : Fin 1) (r : Fin 2048) (d : Fin 256), y = ix3 u r d := ⟨y 0, y 1, y 2, eq_ix3 y⟩
  show k0_pay1 (iblk m c 0 t) (iblk m c 1 t) (iblk m c 2 t) (iblk m c 3 t) (ix3 u r d)
    = result (V m c main_arg0) (V m c main_arg1) (V m c main_arg2) (V m c main_arg3) (((cfg0.win 4).blk t).view.emb (ix3 u r d))
  exact (payload_apply (iblk m c 0 t) (iblk m c 1 t) (iblk m c 2 t) (iblk m c 3 t) u r d).trans
    (spec_at_block_entry m c t u r d).symm

/-! ## The blocks hold every entry -/

/-- An entry of the result lies in step `t`'s block iff each coordinate lies in the block's range on its axis. -/
theorem mem_block (t : Fin cfg0.N) (i : S62x8192x256.Idx) :
    i ∈ ((cfg0.win 4).blk t).view.set ↔ ∀ a : Fin 3, win0_4.index t a * S1x2048x256.size a ≤ (i a).val
      ∧ (i a).val < win0_4.index t a * S1x2048x256.size a + S1x2048x256.size a := by
  show i ∈ ((View.whole main_v0).slice (win0_4.rect t)).set ↔ _
  rw [View.set_slice_whole, Rect.mem_set_unit]
  exact Iff.rfl

/-- Entry `(p, n, d)` lies in the block written at part `p`, run `n / 2048`. -/
theorem every_entry_written (i : S62x8192x256.Idx) :
    ∃ t : Fin cfg0.N, (cfg0.win 4).flush t = true ∧ i ∈ ((cfg0.win 4).blk t).view.set := by
  have hi0 : (i 0).val < 62 := (i 0).isLt
  have hi1 : (i 1).val < 8192 := (i 1).isLt
  have hi2 : (i 2).val < 256 := (i 2).isLt
  obtain ⟨t, ht⟩ := every_block_written ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 2048 ≤ (i 1).val ∧ (i 1).val < win0_4.index t (1 : Fin 3) * 2048 + 2048
    omega
  | ⟨2, _⟩ =>
    show win0_4.index t (2 : Fin 3) * 256 ≤ (i 2).val ∧ (i 2).val < win0_4.index t (2 : Fin 3) * 256 + 256
    omega

/-! ## The result array after the run -/

/-- After the run the result array is the specification's, as a function of the argument arrays as launched. -/
theorem final (c : Dev nD) :
    (dats m 0 c).arrAt 4 cfg0.N
      = result (m ((c : Thread nD τ).loc main_arg0)) (m ((c : Thread nD τ).loc main_arg1))
          (m ((c : Thread nD τ).loc main_arg2)) (m ((c : Thread nD τ).loc main_arg3)) :=
  (dats m 0 c).arrAt_eq_of_cover 4
    (result (V m c main_arg0) (V m c main_arg1) (V m c main_arg2) (V m c main_arg3))
    (fun t _ => flushed_eq m c t) every_entry_written

/-- Every weakly fair execution of the idealized kernel ends with the result array at the specification of the
    arguments, and the arguments as they were. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue
-- ==== Proof.RefValue.lean ====
/-
  The reference program computes the specification.

  The reference forms all 62 · 8192 · 256 channels at once (one batched product of the features with the weights,
  batched over the parts and contracted over the 128 features), totals each row of 256 channels starting from zero,
  divides by 256, subtracts, squares, totals and divides again, adds ε, takes the reciprocal square root, and scales and
  shifts by the parameters spread over all rows. Read at part p, point n and channel d, every one of these steps only
  renames indices, and the zero a total starts from adds nothing; so the last stage, entry by entry, is the normalised
  row of `NormSpec`, grouped exactly as there.
-/
import proofs.«170389_j82995948028522_1_alg».proof.Proof.Gen.ReferenceIdeal.Read
import proofs.«170389_j82995948028522_1_alg».proof.Proof.NormSpec

noncomputable section

open scoped BigOperators

namespace Cert.ReferenceIdeal.RefValue

open Cert.ReferenceIdeal Cert.ReferenceIdeal.Read Idealize.ShloMosaic Idealize.ShloMosaic.ValueIdx Cert.NormSpec

variable (x0 : (⟨S62x8192x128, .f32⟩ : BufTy).Contents (Elt Ideal)) (x1 : (⟨S62x256x128, .f32⟩ : BufTy).Contents (Elt Ideal))
  (x2 x3 : (⟨S256, .f32⟩ : BufTy).Contents (Elt Ideal))

/-! ## Where each stage reads its operand, at coordinates -/

theorem features_at (p : Fin 62) (n : Fin 8192) (d : Fin 256) (k : Fin 128) : lidx_main_v0 (ix3 p n d) k = ix3 p n k :=
  funext fun a => by match a with | ⟨0, _⟩ => rfl | ⟨1, _⟩ => rfl | ⟨2, _⟩ => rfl

theorem weights_at (p : Fin 62) (n : Fin 8192) (d : Fin 256) (k : Fin 128) : ridx_main_v0 (ix3 p n d) k = ix3 p d k :=
  funext fun a => by match a with | ⟨0, _⟩ => rfl | ⟨1, _⟩ => rfl | ⟨2, _⟩ => rfl

theorem row_entry_first (p : Fin 62) (n : Fin 8192) (k : Fin 256) : idx_main_v1 (ix2 p n) k = ix3 p n k :=
  funext fun a => by match a with | ⟨0, _⟩ => rfl | ⟨1, _⟩ => rfl | ⟨2, _⟩ => rfl

theorem row_entry_second (p : Fin 62) (n : Fin 8192) (k : Fin 256) : idx_main_v8 (ix2 p n) k = ix3 p n k :=
  funext fun a => by match a with | ⟨0, _⟩ => rfl | ⟨1, _⟩ => rfl | ⟨2, _⟩ => rfl

theorem column_first (p : Fin 62) (n : Fin 8192) (u : Fin 1) : idx_main_v2 (ix3 p n u) = ix2 p n :=
  funext fun a => by match a with | ⟨0, _⟩ => rfl | ⟨1, _⟩ => rfl

theorem column_second (p : Fin 62) (n : Fin 8192) (u : Fin 1) : idx_main_v9 (ix3 p n u) = ix2 p n :=
  funext fun a => by match a with | ⟨0, _⟩ => rfl | ⟨1, _⟩ => rfl

theorem spread_mean_first (p : Fin 62) (n : Fin 8192) (d : Fin 256) : idx_main_v5 (ix3 p n d) = ix3 p n (0 : Fin 1) :=
  funext fun a => by match a with | ⟨0, _⟩ => rfl | ⟨1, _⟩ => rfl | ⟨2, _⟩ => rfl

theorem spread_mean_second (p : Fin 62) (n : Fin 8192) (d : Fin 256) : idx_main_v12 (ix3 p n d) = ix3 p n (0 : Fin 1) :=
  funext fun a => by match a with | ⟨0, _⟩ => rfl | ⟨1, _⟩ => rfl | ⟨2, _⟩ => rfl

theorem spread_scale (p : Fin 62) (n : Fin 8192) (d : Fin 256) : idx_main_v17 (ix3 p n d) = ix3 p n (0 : Fin 1) :=
  funext fun a => by match a with | ⟨0, _⟩ => rfl | ⟨1, _⟩ => rfl | ⟨2, _⟩ => rfl

theorem gamma_row (p : Fin 62) (n : Fin 8192) (d : Fin 256) : idx_main_v19 (idx_main_v20 (ix3 p n d)) = ix1 d :=
  funext fun a => by match a with | ⟨0, _⟩ => rfl

theorem beta_row (p : Fin 62) (n : Fin 8192) (d : Fin 256) : idx_main_v22 (idx_main_v23 (ix3 p n d)) = ix1 d :=
  funext fun a => by match a with | ⟨0, _⟩ => rfl

/-! ## The stages, at coordinates -/

/-- The batched product at part `p`, point `n`, channel `d`. -/
theorem channel_at (p : Fin 62) (n : Fin 8192) (d : Fin 256) :
    val_main_v0 (F := Ideal) x0 x1 (ix3 p n d) = channel x0 x1 p n d := by
  refine (val_main_v0_apply x0 x1 (ix3 p n d)).trans ?_
  unfold channel
  refine Finset.sum_congr rfl fun k _ => ?_
  rw [features_at, weights_at]

/-- The total of a row of channels: the zero it starts from adds nothing. -/
theorem total_at (p : Fin 62) (n : Fin 8192) :
    val_main_v1 (F := Ideal) x0 x1 (ix2 p n) = ∑ k : Fin 256, channel x0 x1 p n k := by
  refine (val_main_v1_apply x0 x1 (ix2 p n)).trans ?_
  refine (congrArg₂ (· + ·) Ideal.ofBits_zero_f32 (Finset.sum_congr rfl fun k _ => ?_)).trans (zero_add _)
  rw [row_entry_first]
  exact channel_at x0 x1 p n k

/-- The row's mean, kept as a column. -/
theorem mean_at (p : Fin 62) (n : Fin 8192) (u : Fin 1) :
    val_main_v4 (F := Ideal) x0 x1 (ix3 p n u) = rowMean (channel x0 x1 p n) := by
  unfold rowMean
  change Ideal.div (val_main_v2 (F := Ideal) x0 x1 (ix3 p n u)) (val_main_v3 (F := Ideal) (ix3 p n u)) = _
  refine congrArg₂ Ideal.div ?_ (val_main_v3_apply _)
  refine (val_main_v2_apply x0 x1 _).trans ?_
  rw [column_first]
  exact total_at x0 x1 p n

/-- The deviation from the mean, as squared for the variance. -/
theorem deviation_first (p : Fin 62) (n : Fin 8192) (d : Fin 256) :
    val_main_v6 (F := Ideal) x0 x1 (ix3 p n d) = channel x0 x1 p n d - rowMean (channel x0 x1 p n) := by
  change val_main_v0 (F := Ideal) x0 x1 (ix3 p n d) - val_main_v5 (F := Ideal) x0 x1 (ix3 p n d) = _
  refine congrArg₂ (· - ·) (channel_at x0 x1 p n d) ?_
  refine (val_main_v5_apply x0 x1 _).trans ?_
  rw [spread_mean_first]
  exact mean_at x0 x1 p n 0

/-- The deviation from the mean, as scaled for the result. -/
theorem deviation_second (p : Fin 62) (n : Fin 8192) (d : Fin 256) :
    val_main_v13 (F := Ideal) x0 x1 (ix3 p n d) = channel x0 x1 p n d - rowMean (channel x0 x1 p n) := by
  change val_main_v0 (F := Ideal) x0 x1 (ix3 p n d) - val_main_v12 (F := Ideal) x0 x1 (ix3 p n d) = _
  refine congrArg₂ (· - ·) (channel_at x0 x1 p n d) ?_
  refine (val_main_v12_apply x0 x1 _).trans ?_
  rw [spread_mean_second]
  exact mean_at x0 x1 p n 0

/-- The row's variance, kept as a column. -/
theorem variance_at (p : Fin 62) (n : Fin 8192) (u : Fin 1) :
    val_main_v11 (F := Ideal) x0 x1 (ix3 p n u) = rowVar (channel x0 x1 p n) := by
  unfold rowVar
  change Ideal.div (val_main_v9 (F := Ideal) x0 x1 (ix3 p n u)) (val_main_v10 (F := Ideal) (ix3 p n u)) = _
  refine congrArg₂ Ideal.div ?_ (val_main_v10_apply _)
  refine (val_main_v9_apply x0 x1 _).trans ?_
  rw [column_second]
  refine (val_main_v8_apply x0 x1 (ix2 p n)).trans ?_
  refine (congrArg₂ (· + ·) Ideal.ofBits_zero_f32 (Finset.sum_congr rfl fun k _ => ?_)).trans (zero_add _)
  rw [row_entry_second]
  change val_main_v6 (F := Ideal) x0 x1 (ix3 p n k) * val_main_v6 (F := Ideal) x0 x1 (ix3 p n k) = _
  rw [deviation_first]

/-- The row's scale: the reciprocal square root of the variance plus ε. -/
theorem scale_at (p : Fin 62) (n : Fin 8192) (u : Fin 1) :
    val_main_v16 (F := Ideal) x0 x1 (ix3 p n u) = Ideal.rsqrt (rowVar (channel x0 x1 p n) + stabiliser) := by
  change Ideal.rsqrt (val_main_v11 (F := Ideal) x0 x1 (ix3 p n u) + val_main_v14 (F := Ideal) (ix3 p n u)) = _
  refine congrArg Ideal.rsqrt (congrArg₂ (· + ·) (variance_at x0 x1 p n u) (val_main_v14_apply _))

/-- The whole result at part `p`, point `n`, channel `d`. -/
theorem entry_at (p : Fin 62) (n : Fin 8192) (d : Fin 256) :
    val_main_v24 (F := Ideal) x0 x1 x2 x3 (ix3 p n d) = entry x0 x1 x2 x3 p n d := by
  unfold entry normRow
  change val_main_v13 (F := Ideal) x0 x1 (ix3 p n d) * val_main_v17 (F := Ideal) x0 x1 (ix3 p n d)
      * val_main_v20 (F := Ideal) x2 (ix3 p n d) + val_main_v23 (F := Ideal) x3 (ix3 p n d) = _
  refine congrArg₂ (· + ·) (congrArg₂ (· * ·) (congrArg₂ (· * ·) (deviation_second x0 x1 p n d) ?_) ?_) ?_
  · refine (val_main_v17_apply x0 x1 _).trans ?_
    rw [spread_scale]
    exact scale_at x0 x1 p n 0
  · refine (val_main_v20_apply x2 _).trans ((val_main_v19_apply x2 _).trans ?_)
    rw [gamma_row]
  · refine (val_main_v23_apply x3 _).trans ((val_main_v22_apply x3 _).trans ?_)
    rw [beta_row]

/-- The reference's last stage is the specification. -/
theorem last_stage_eq : val_main_v24 (F := Ideal) x0 x1 x2 x3 = result x0 x1 x2 x3 := by
  funext i
  obtain ⟨p, n, d, rfl⟩ : ∃ (p : Fin 62) (n : Fin 8192) (d : Fin 256), i = ix3 p n d := ⟨i 0, i 1, i 2, eq_ix3 i⟩
  exact entry_at x0 x1 x2 x3 p n d

end Cert.ReferenceIdeal.RefValue
-- ==== Proof.lean ====
/-
  A per-part linear map followed by a layer normalisation, fused in one kernel, against the same computation written
  with whole-array operations.

  For each of 62 parts and each of its 8192 points, 128 features are mapped to 256 channels by the part's weight
  matrix, and the 256 channels are normalised: their mean is subtracted, the result is multiplied by the reciprocal
  square root of the variance plus ε, then by a scale parameter, and a shift parameter is added (`Proof/NormSpec.lean`
  states this as one function of the four argument arrays, entry by entry).

  The kernel walks a 62 × 4 grid; each step multiplies a 2048 × 128 block of features by the transposed 256 × 128
  weights of its part and normalises the 2048 rows of the product (`Proof/BodyValue.lean`: the stored block, entry by
  entry, is the specification's normalised row built from the block's own channels). The block a step writes is its block
  of the specification's result, and the 248 blocks hold every entry (`Proof/ArrayValue.lean`). The reference computes
  all channels by one batched product and normalises with whole-array reductions and broadcasts; read at an entry it
  is the same expression, the zeros its totals start from adding nothing (`Proof/RefValue.lean`).

  Over the extended reals the two programs therefore agree term for term: the same sums of the same products, the same
  divisions by 256, the same ε, the same reciprocal square root, grouped the same way. Narrowing the matrix factors
  to bfloat16 is the identity there, and a sum does not depend on the order of its terms. No distributive law and no
  cancellation is used, so the finiteness of the inputs is never needed.

  The three frames: the two kernels' are the generated frame certificates; the reference, which has no kernel, runs to
  its composed term with the arguments unchanged. The idealisation rewrote nothing, so it preserves the kernel trivially.
-/
import proofs.«170389_j82995948028522_1_alg».proof.Defs
import proofs.«170389_j82995948028522_1_alg».proof.Proof.Gen.Kernel
import proofs.«170389_j82995948028522_1_alg».proof.Proof.Gen.Kernel.Skeleton
import proofs.«170389_j82995948028522_1_alg».proof.Proof.Gen.Kernel.Launch
import proofs.«170389_j82995948028522_1_alg».proof.Proof.Gen.Kernel.Points
import proofs.«170389_j82995948028522_1_alg».proof.Proof.Gen.Kernel.Frame
import proofs.«170389_j82995948028522_1_alg».proof.Proof.Gen.KernelIdeal
import proofs.«170389_j82995948028522_1_alg».proof.Proof.Gen.KernelIdeal.Skeleton
import proofs.«170389_j82995948028522_1_alg».proof.Proof.Gen.KernelIdeal.Launch
import proofs.«170389_j82995948028522_1_alg».proof.Proof.Gen.KernelIdeal.Points
import proofs.«170389_j82995948028522_1_alg».proof.Proof.Gen.KernelIdeal.Frame
import proofs.«170389_j82995948028522_1_alg».proof.Proof.Gen.ReferenceIdeal
import proofs.«170389_j82995948028522_1_alg».proof.Proof.Gen.Pre_finite_inputs
import proofs.«170389_j82995948028522_1_alg».proof.Proof.Gen.KernelIdeal.Value
import proofs.«170389_j82995948028522_1_alg».proof.Proof.Gen.ReferenceIdeal.Run
import proofs.«170389_j82995948028522_1_alg».proof.Proof.Gen.ReferenceIdeal.Read
import proofs.«170389_j82995948028522_1_alg».proof.Proof.ArrayValue
import proofs.«170389_j82995948028522_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its four arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of whole-array operations: it runs to its composed term, and that run leaves
    the arguments as they were. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the four arguments both programs end with the specification's result array: the
    kernel because every step writes its block of it and the blocks hold every entry, the reference because its last
    stage is that function. -/
theorem algebraic : Cert.algebraic_KernelIdeal_ReferenceIdeal := by
  intro m ρ m' ρ' _ hagree
  refine ⟨fun c => Cert.NormSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.last_stage_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
